-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S8000000x3 : Shape := ⟨2, ![8000000, 3]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel
  bcast_S_S8000000x3 : S_.BroadcastsInDim S8000000x3 (![] : Fin 0 → Fin S8000000x3.rank)
  reducesTo_S8000000x3_S_d0_1 : S8000000x3.ReducesTo [0, 1] S_

variable [Facts]

def fn {F : FTy → Type} [FloatOps F] (main_arg0 : FVec F S8000000x4 .f32) (main_arg1 : FVec F S8000000x3 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x3 .f32 := Host.absf main_arg1
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  main_v8
-- ==== Kernel.lean ====
abbrev S8000000x4 : Shape := ⟨2, ![8000000, 4]⟩
abbrev S8000000x3 : Shape := ⟨2, ![8000000, 3]⟩
abbrev S4x8000000 : Shape := ⟨2, ![4, 8000000]⟩
abbrev S3x8000000 : Shape := ⟨2, ![3, 8000000]⟩
abbrev S9x8000000 : Shape := ⟨2, ![9, 8000000]⟩
abbrev S4x32000 : Shape := ⟨2, ![4, 32000]⟩
abbrev S3x32000 : Shape := ⟨2, ![3, 32000]⟩
abbrev S9x32000 : Shape := ⟨2, ![9, 32000]⟩
abbrev S32000 : Shape := ⟨1, ![32000]⟩
abbrev S1x32000 : Shape := ⟨2, ![1, 32000]⟩
abbrev S8000000x9 : Shape := ⟨2, ![8000000, 9]⟩
abbrev S8000000x3x3 : Shape := ⟨3, ![8000000, 3, 3]⟩

abbrev nBuf : Space → Nat
  | .hbm => 7
  | .vmem => 6
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S4x8000000, .f32⟩
  | .hbm, ⟨3, _⟩ => ⟨S3x8000000, .f32⟩
  | .hbm, ⟨4, _⟩ => ⟨S9x8000000, .f32⟩
  | .hbm, ⟨5, _⟩ => ⟨S8000000x9, .f32⟩
  | .hbm, ⟨6, _⟩ => ⟨S8000000x3x3, .f32⟩
  | .local _ .vmem, ⟨0, _⟩ => ⟨S4x32000, .f32⟩
  | .local _ .vmem, ⟨1, _⟩ => ⟨S4x32000, .f32⟩
  | .local _ .vmem, ⟨2, _⟩ => ⟨S3x32000, .f32⟩
  | .local _ .vmem, ⟨3, _⟩ => ⟨S3x32000, .f32⟩
  | .local _ .vmem, ⟨4, _⟩ => ⟨S9x32000, .f32⟩
  | .local _ .vmem, ⟨5, _⟩ => ⟨S9x32000, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8000000x4_S4x8000000_1_0 : S8000000x4.Transposes [1, 0] S4x8000000
  transposes_S8000000x3_S3x8000000_1_0 : S8000000x3.Transposes [1, 0] S3x8000000
  inb_S4x32000_S4x32000_0_0 : ∀ a, (![0, 0] : Fin 2 → Nat) a + S4x32000.size a ≤ S4x32000.size a
  h_S4x32000 : 0 < S4x32000.numel
  shapeCasts_S4x32000_S4x32000 : S4x32000.ShapeCasts S4x32000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  reduces_S4x32000_S32000 : S4x32000.Reduces [0] S32000
  shapeCasts_S32000_S1x32000 : S32000.ShapeCasts S1x32000
  broadcasts_S1x32000_S4x32000 : S1x32000.Broadcasts S4x32000
  slices_S4x32000_o0_0_S1x32000 : S4x32000.Slices ![0, 0] S1x32000
  shapeCasts_S1x32000_S32000 : S1x32000.ShapeCasts S32000
  slices_S4x32000_o1_0_S1x32000 : S4x32000.Slices ![1, 0] S1x32000
  slices_S4x32000_o2_0_S1x32000 : S4x32000.Slices ![2, 0] S1x32000
  slices_S4x32000_o3_0_S1x32000 : S4x32000.Slices ![3, 0] S1x32000
  slices_S3x32000_o0_0_S1x32000 : S3x32000.Slices ![0, 0] S1x32000
  slices_S3x32000_o1_0_S1x32000 : S3x32000.Slices ![1, 0] S1x32000
  slices_S3x32000_o2_0_S1x32000 : S3x32000.Slices ![2, 0] S1x32000
  inb_S9x32000_S1x32000_0_0 : ∀ a, (![0, 0] : Fin 2 → Nat) a + S1x32000.size a ≤ S9x32000.size a
  h_S1x32000 : 0 < S1x32000.numel
  inb_S9x32000_S1x32000_1_0 : ∀ a, (![1, 0] : Fin 2 → Nat) a + S1x32000.size a ≤ S9x32000.size a
  inb_S9x32000_S1x32000_2_0 : ∀ a, (![2, 0] : Fin 2 → Nat) a + S1x32000.size a ≤ S9x32000.size a
  inb_S9x32000_S1x32000_3_0 : ∀ a, (![3, 0] : Fin 2 → Nat) a + S1x32000.size a ≤ S9x32000.size a
  inb_S9x32000_S1x32000_4_0 : ∀ a, (![4, 0] : Fin 2 → Nat) a + S1x32000.size a ≤ S9x32000.size a
  inb_S9x32000_S1x32000_5_0 : ∀ a, (![5, 0] : Fin 2 → Nat) a + S1x32000.size a ≤ S9x32000.size a
  inb_S9x32000_S1x32000_6_0 : ∀ a, (![6, 0] : Fin 2 → Nat) a + S1x32000.size a ≤ S9x32000.size a
  inb_S9x32000_S1x32000_7_0 : ∀ a, (![7, 0] : Fin 2 → Nat) a + S1x32000.size a ≤ S9x32000.size a
  inb_S9x32000_S1x32000_8_0 : ∀ a, (![8, 0] : Fin 2 → Nat) a + S1x32000.size a ≤ S9x32000.size a
  transposes_S9x8000000_S8000000x9_1_0 : S9x8000000.Transposes [1, 0] S8000000x9
  shapeCasts_S8000000x9_S8000000x3x3 : S8000000x9.ShapeCasts S8000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32000.size a ≤ S4x8000000.size a
  hwx0_0 : ∀ i : grid0.Coords, EltTy.bits .f32 = 32 ∨ (Rect.block (s := S4x8000000) S4x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32000.size a ≤ S3x8000000.size a
  hwx0_1 : ∀ i : grid0.Coords, EltTy.bits .f32 = 32 ∨ (Rect.block (s := S3x8000000) S3x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x32000.size a ≤ S9x8000000.size a
  hwx0_2 : ∀ i : grid0.Coords, EltTy.bits .f32 = 32 ∨ (Rect.block (s := S9x8000000) S9x32000.size (cc0_transform_2 i) (hinb0_2 i)).WholeWords (EltTy.packing .f32)

variable [Facts₀]

abbrev win0_0 : Pipeline.Window sig grid0 :=
  Pipeline.Window.ofSpec (Memref.whole main_v0) S4x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩
abbrev S8000000x1 : Shape := ⟨2, ![8000000, 1]⟩
abbrev S8000000x1x3 : Shape := ⟨3, ![8000000, 1, 3]⟩
abbrev S8000000x3x3 : Shape := ⟨3, ![8000000, 3, 3]⟩

abbrev nBuf : Space → Nat
  | .hbm => 100
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x4, .f32⟩
  | .hbm, ⟨3, _⟩ => ⟨S_, .f32⟩
  | .hbm, ⟨4, _⟩ => ⟨S8000000, .f32⟩
  | .hbm, ⟨5, _⟩ => ⟨S8000000x1, .f32⟩
  | .hbm, ⟨6, _⟩ => ⟨S8000000x1, .f32⟩
  | .hbm, ⟨7, _⟩ => ⟨S8000000x4, .f32⟩
  | .hbm, ⟨8, _⟩ => ⟨S8000000x4, .f32⟩
  | .hbm, ⟨9, _⟩ => ⟨S8000000x1, .f32⟩
  | .hbm, ⟨10, _⟩ => ⟨S8000000, .f32⟩
  | .hbm, ⟨11, _⟩ => ⟨S8000000x1, .f32⟩
  | .hbm, ⟨12, _⟩ => ⟨S8000000, .f32⟩
  | .hbm, ⟨13, _⟩ => ⟨S8000000x1, .f32⟩
  | .hbm, ⟨14, _⟩ => ⟨S8000000, .f32⟩
  | .hbm, ⟨15, _⟩ => ⟨S8000000x1, .f32⟩
  | .hbm, ⟨16, _⟩ => ⟨S8000000, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S_, .f32⟩
  | .hbm, ⟨21, _⟩ => ⟨S8000000, .f32⟩
  | .hbm, ⟨22, _⟩ => ⟨S8000000, .f32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000x1, .f32⟩
  | .hbm, ⟨39, _⟩ => ⟨S8000000x1, .f32⟩
  | .hbm, ⟨40, _⟩ => ⟨S8000000x1, .f32⟩
  | .hbm, ⟨41, _⟩ => ⟨S8000000x3, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S_, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S_, .f32⟩
  | .hbm, ⟨52, _⟩ => ⟨S8000000, .f32⟩
  | .hbm, ⟨53, _⟩ => ⟨S8000000, .f32⟩
  | .hbm, ⟨54, _⟩ => ⟨S_, .f32⟩
  | .hbm, ⟨55, _⟩ => ⟨S8000000, .f32⟩
  | .hbm, ⟨56, _⟩ => ⟨S8000000, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S_, .f32⟩
  | .hbm, ⟨61, _⟩ => ⟨S8000000, .f32⟩
  | .hbm, ⟨62, _⟩ => ⟨S8000000, .f32⟩
  | .hbm, ⟨63, _⟩ => ⟨S8000000x1, .f32⟩
  | .hbm, ⟨64, _⟩ => ⟨S8000000x1, .f32⟩
  | .hbm, ⟨65, _⟩ => ⟨S8000000x1, .f32⟩
  | .hbm, ⟨66, _⟩ => ⟨S8000000x3, .f32⟩
  | .hbm, ⟨67, _⟩ => ⟨S8000000, .f32⟩
  | .hbm, ⟨68, _⟩ => ⟨S8000000, .f32⟩
  | .hbm, ⟨69, _⟩ => ⟨S8000000, .f32⟩
  | .hbm, ⟨70, _⟩ => ⟨S_, .f32⟩
  | .hbm, ⟨71, _⟩ => ⟨S8000000, .f32⟩
  | .hbm, ⟨72, _⟩ => ⟨S8000000, .f32⟩
  | .hbm, ⟨73, _⟩ => ⟨S8000000, .f32⟩
  | .hbm, ⟨74, _⟩ => ⟨S8000000, .f32⟩
  | .hbm, ⟨75, _⟩ => ⟨S8000000, .f32⟩
  | .hbm, ⟨76, _⟩ => ⟨S_, .f32⟩
  | .hbm, ⟨77, _⟩ => ⟨S8000000, .f32⟩
  | .hbm, ⟨78, _⟩ => ⟨S8000000, .f32⟩
  | .hbm, ⟨79, _⟩ => ⟨S8000000, .f32⟩
  | .hbm, ⟨80, _⟩ => ⟨S8000000, .f32⟩
  | .hbm, ⟨81, _⟩ => ⟨S8000000, .f32⟩
  | .hbm, ⟨82, _⟩ => ⟨S_, .f32⟩
  | .hbm, ⟨83, _⟩ => ⟨S8000000, .f32⟩
  | .hbm, ⟨84, _⟩ => ⟨S8000000, .f32⟩
  | .hbm, ⟨85, _⟩ => ⟨S_, .f32⟩
  | .hbm, ⟨86, _⟩ => ⟨S8000000, .f32⟩
  | .hbm, ⟨87, _⟩ => ⟨S8000000, .f32⟩
  | .hbm, ⟨88, _⟩ => ⟨S8000000x1, .f32⟩
  | .hbm, ⟨89, _⟩ => ⟨S8000000x1, .f32⟩
  | .hbm, ⟨90, _⟩ => ⟨S8000000x1, .f32⟩
  | .hbm, ⟨91, _⟩ => ⟨S8000000x3, .f32⟩
  | .hbm, ⟨92, _⟩ => ⟨S8000000x1x3, .f32⟩
  | .hbm, ⟨93, _⟩ => ⟨S8000000x1x3, .f32⟩
  | .hbm, ⟨94, _⟩ => ⟨S8000000x1x3, .f32⟩
  | .hbm, ⟨95, _⟩ => ⟨S8000000x3x3, .f32⟩
  | .hbm, ⟨96, _⟩ => ⟨S8000000x1x3, .f32⟩
  | .hbm, ⟨97, _⟩ => ⟨S8000000x3x3, .f32⟩
  | .hbm, ⟨98, _⟩ => ⟨S8000000x3x3, .f32⟩
  | .hbm, ⟨99, _⟩ => ⟨S8000000x3x3, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x3_d1 : Shape.Concatenates [S8000000x1, S8000000x1, S8000000x1] S8000000x3 1
  bcast_S8000000x3_S8000000x1x3_0_2 : S8000000x3.BroadcastsInDim S8000000x1x3 (![0, 2] : Fin 2 → Fin S8000000x1x3.rank)
  concatenates_S8000000x1x3_S8000000x1x3_S8000000x1x3_S8000000x3x3_d1 : Shape.Concatenates [S8000000x1x3, S8000000x1x3, S8000000x1x3] S8000000x3x3 1
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.Spec.lean ====
/-
  The mathematics shared by both programs, over the extended reals, with no program in sight.

  A row of the input is a quaternion q = (w, x, y, z) and a scale s = (s₀, s₁, s₂).  Both programs
  first normalise the quaternion, u = q / sqrt (w² + x² + y² + z²), build the rotation matrix R(u)
  by the usual nine quadratic forms, scale its COLUMNS, M[a, j] = R[a, j] · s[j], and return the
  Gram matrix of M's rows:  cov[a, b] = Σ_j M[a, j] · M[b, j].

  The reference takes that sum as a contraction over j, for every (a, b).  The kernel computes only
  the six entries with a ≤ b, each as (M[a,0]·M[b,0] + M[a,1]·M[b,1]) + M[a,2]·M[b,2], and writes
  entry (a, b) also in place (b, a).  The two agree because a sum over three terms is that
  bracketing and because multiplication of extended reals commutes: no distributivity, no
  cancellation, hence no finiteness is used anywhere.

  The words 1.0 and 2.0 are the same on both sides and are never evaluated.
-/
import Idealize.ShloMosaic.PureOps.Ideal
import Mathlib.Algebra.BigOperators.Fin

noncomputable section

namespace Cert.Cov

open Idealize.ShloMosaic

/-- The f32 word of 1.0, read at the ideal instance. -/
def one : EReal := Ideal.ofBits .f32 0x3F800000#32
/-- The f32 word of 2.0, read at the ideal instance. -/
def two : EReal := Ideal.ofBits .f32 0x40000000#32

/-- The squared length of a quaternion: the sum of its four squares. -/
def sqLen (q : Fin 4 → EReal) : EReal := ∑ k : Fin 4, q k * q k

/-- A quaternion divided, component by component, by its length. -/
def unitQ (q : Fin 4 → EReal) (k : Fin 4) : EReal := Ideal.div (q k) (Ideal.sqrt (sqLen q))

/-- Entry (a, j) of R(u) · diag(s): the rotation matrix of the quaternion u = (w, x, y, z) with its
    column j scaled by s j.  Off the 3 × 3 range it is 0 (never read). -/
def scaledRot (u : Fin 4 → EReal) (s : Fin 3 → EReal) : Nat → Nat → EReal
  | 0, 0 => (one - two * (u 2 * u 2 + u 3 * u 3)) * s 0
  | 0, 1 => (two * (u 1 * u 2 - u 0 * u 3)) * s 1
  | 0, 2 => (two * (u 1 * u 3 + u 0 * u 2)) * s 2
  | 1, 0 => (two * (u 1 * u 2 + u 0 * u 3)) * s 0
  | 1, 1 => (one - two * (u 1 * u 1 + u 3 * u 3)) * s 1
  | 1, 2 => (two * (u 2 * u 3 - u 0 * u 1)) * s 2
  | 2, 0 => (two * (u 1 * u 3 - u 0 * u 2)) * s 0
  | 2, 1 => (two * (u 2 * u 3 + u 0 * u 1)) * s 1
  | 2, 2 => (one - two * (u 1 * u 1 + u 2 * u 2)) * s 2
  | _, _ => 0

/-- The covariance entry (a, b) of one input row, as the reference contracts it: the sum over the
    column j of M[a, j] · M[b, j], with M the scaled rotation of the normalised quaternion. -/
def cov (q : Fin 4 → EReal) (s : Fin 3 → EReal) (a b : Fin 3) : EReal :=
  ∑ j : Fin 3, scaledRot (unitQ q) s a.val j.val * scaledRot (unitQ q) s b.val j.val

/-- The product of rows a and b of M, bracketed as the kernel adds it. -/
def rowDot (u : Fin 4 → EReal) (s : Fin 3 → EReal) (a b : Nat) : EReal :=
  (scaledRot u s a 0 * scaledRot u s b 0 + scaledRot u s a 1 * scaledRot u s b 1) + scaledRot u s a 2 * scaledRot u s b 2

/-- Row r of the kernel's 9-row output block at one column: the flattened 3 × 3 matrix, entry (a, b)
    in row 3a + b, where the kernel stores the upper-triangle value for both (a, b) and (b, a). -/
def covRow (q : Fin 4 → EReal) (s : Fin 3 → EReal) : Nat → EReal
  | 0 => rowDot (unitQ q) s 0 0
  | 1 => rowDot (unitQ q) s 0 1
  | 2 => rowDot (unitQ q) s 0 2
  | 3 => rowDot (unitQ q) s 0 1
  | 4 => rowDot (unitQ q) s 1 1
  | 5 => rowDot (unitQ q) s 1 2
  | 6 => rowDot (unitQ q) s 0 2
  | 7 => rowDot (unitQ q) s 1 2
  | 8 => rowDot (unitQ q) s 2 2
  | _ => 0

/-- The kernel's row 3a + b is the reference's entry (a, b): a three-term sum is the kernel's
    bracketing, and below the diagonal the factors of each product are exchanged. -/
theorem covRow_eq_cov (q : Fin 4 → EReal) (s : Fin 3 → EReal) (a b : Fin 3) :
    covRow q s (3 * a.val + b.val) = cov q s a b := by
  unfold cov
  rw [Fin.sum_univ_three]
  fin_cases a <;> fin_cases b <;>
    simp only [covRow, rowDot, Fin.val_zero, Fin.val_one, Fin.val_two, Fin.zero_eta, Fin.mk_one, Fin.reduceFinMk,
      Nat.mul_zero, Nat.mul_one, Nat.zero_add, Nat.add_zero, Nat.reduceMul, Nat.reduceAdd] <;>
    first | rfl | (simp only [mul_comm])

end Cert.Cov

end
-- ==== Proof.KernelBlock.lean ====
/-
  What the kernel body leaves in its output block, read at one index.

  The body loads a [4, 32000] block of quaternions (one per column) and a [3, 32000] block of scales,
  normalises each column's quaternion by the square root of the sum of its four squares (a sum over
  the rows of the block), forms the nine scaled rotation entries as vectors over the columns, the six
  products of rows a ≤ b of M, and stores them as the nine rows of the [9, 32000] output block, row
  3a + b and row 3b + a both holding the (a, b) product.  Read at row r and column c the block is
  the specification's row form of the covariance of column c of the two input blocks.
-/
import proofs.«100342_j36670430773888_1_alg».proof.Proof.Gen.KernelIdeal.Frame
import proofs.«100342_j36670430773888_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx
open Cert.Cov

/-- A block of quaternions, one per column; a block of scales, one per column. -/
abbrev QBlk := Vec Ideal S4x32000 .f32
abbrev SBlk := Vec Ideal S3x32000 .f32
/-- A vector over the block's columns. -/
abbrev Lane := FVec Ideal S32000 .f32

/-- Column c of the quaternion block. -/
def qcol (x0 : QBlk) (c : Fin 32000) : Fin 4 → EReal := fun k => x0 (ix2 k c)
/-- Column c of the scale block. -/
def scol (x1 : SBlk) (c : Fin 32000) : Fin 3 → EReal := fun j => x1 (ix2 j c)

variable (x0 : QBlk) (x1 : SBlk) (c : Fin 32000)

/-- The square root of a vector, at an index. -/
theorem sqrt_at {s : Shape} (v : FVec Ideal s .f32) (i : s.Idx) : sqrt v i = Ideal.sqrt (v i) := rfl

/-! ## The normalised quaternion of a column -/

/-- The sum over the block's rows of the squares, at column c: the squared length of that column. -/
theorem sum_sq : (∑ k' : Fin (S4x32000.size 0), ((mulf x0 x0 : FVec Ideal S4x32000 .f32) (reduces_S4x32000_S32000.lift (ix1 c) k') : EReal)) = sqLen (qcol x0 c) := by
  unfold sqLen
  refine Finset.sum_congr rfl fun k' _ => ?_
  have e : reduces_S4x32000_S32000.lift (ix1 c) k' = ix2 k' c :=
    funext fun a => Fin.ext (by match a with | ⟨0, _⟩ => rfl | ⟨1, _⟩ => rfl)
  rw [mulf_apply, e]
  rfl

/-- q / ‖q‖ at (k, c): component k of column c's normalised quaternion. -/
theorem unit_at (k : Fin 4) : k0_pay3 (F := Ideal) x0 (ix2 k c) = unitQ (qcol x0 c) k := by
  simp only [k0_pay3]
  rw [shapeCast_self, divf_apply, broadcastTo_1b_ab_apply, sqrt_at, shapeCast_a_1a_apply]
  have hs : multiReduction .add [0] S32000 (mulf x0 x0 : FVec Ideal S4x32000 .f32) 0x00000000#32 reduces_S4x32000_S32000 (.inl rfl) rfl (ix1 c) = sqLen (qcol x0 c) :=
    (Ideal.multiReduction_add_single (mulf x0 x0 : FVec Ideal S4x32000 .f32) _ reduces_S4x32000_S32000 _ _ (ix1 c)).trans (sum_sq x0 c)
  exact congrArg (fun t => Ideal.div (x0 (ix2 k c)) (Ideal.sqrt t)) hs

/-- The four rows of the normalised block, each as a vector over the columns. -/
theorem w_at : k0_pay4 (F := Ideal) x0 (ix1 c) = unitQ (qcol x0 c) 0 := by
  simp only [k0_pay4]
  rw [shapeCast_1a_a_apply, slice2_axis0_apply 0 (k0_pay3 (F := Ideal) x0) slices_S4x32000_o0_0_S1x32000 (0 : Fin 1) c (0 : Fin 4) rfl, unit_at]
theorem x_at : k0_pay5 (F := Ideal) x0 (ix1 c) = unitQ (qcol x0 c) 1 := by
  simp only [k0_pay5]
  rw [shapeCast_1a_a_apply, slice2_axis0_apply 1 (k0_pay3 (F := Ideal) x0) slices_S4x32000_o1_0_S1x32000 (0 : Fin 1) c (1 : Fin 4) rfl, unit_at]
theorem y_at : k0_pay6 (F := Ideal) x0 (ix1 c) = unitQ (qcol x0 c) 2 := by
  simp only [k0_pay6]
  rw [shapeCast_1a_a_apply, slice2_axis0_apply 2 (k0_pay3 (F := Ideal) x0) slices_S4x32000_o2_0_S1x32000 (0 : Fin 1) c (2 : Fin 4) rfl, unit_at]
theorem z_at : k0_pay7 (F := Ideal) x0 (ix1 c) = unitQ (qcol x0 c) 3 := by
  simp only [k0_pay7]
  rw [shapeCast_1a_a_apply, slice2_axis0_apply 3 (k0_pay3 (F := Ideal) x0) slices_S4x32000_o3_0_S1x32000 (0 : Fin 1) c (3 : Fin 4) rfl, unit_at]

/-- The three rows of the scale block, each as a vector over the columns. -/
theorem s0_at : k0_pay8 (F := Ideal) x1 (ix1 c) = scol x1 c 0 := by
  simp only [k0_pay8, k0_pay2]
  rw [shapeCast_1a_a_apply, shapeCast_self, slice2_axis0_apply 0 x1 slices_S3x32000_o0_0_S1x32000 (0 : Fin 1) c (0 : Fin 3) rfl]
  rfl
theorem s1_at : k0_pay9 (F := Ideal) x1 (ix1 c) = scol x1 c 1 := by
  simp only [k0_pay9, k0_pay2]
  rw [shapeCast_1a_a_apply, shapeCast_self, slice2_axis0_apply 1 x1 slices_S3x32000_o1_0_S1x32000 (0 : Fin 1) c (1 : Fin 3) rfl]
  rfl
theorem s2_at : k0_pay10 (F := Ideal) x1 (ix1 c) = scol x1 c 2 := by
  simp only [k0_pay10, k0_pay2]
  rw [shapeCast_1a_a_apply, shapeCast_self, slice2_axis0_apply 2 x1 slices_S3x32000_o2_0_S1x32000 (0 : Fin 1) c (2 : Fin 3) rfl]
  rfl

/-! ## The nine scaled rotation entries, each a vector over the columns -/

/-- The unscaled entry (1, 0), which the body keeps as a value of its own before scaling it. -/
theorem r10_at : k0_pay14 (F := Ideal) x0 (ix1 c) = two * (unitQ (qcol x0 c) 1 * unitQ (qcol x0 c) 2 + unitQ (qcol x0 c) 0 * unitQ (qcol x0 c) 3) := by
  simp only [k0_pay14, mulf_apply, addf_apply, broadcast_apply, w_at, x_at, y_at, z_at]
  rfl

/-- M[a, j] at column c, for the nine (a, j), as the body computes them from the rows of the normalised
    block and of the scale block. -/
theorem m00_at : k0_pay11 (F := Ideal) x0 x1 (ix1 c) = scaledRot (unitQ (qcol x0 c)) (scol x1 c) 0 0 := by
  simp only [k0_pay11, mulf_apply, subf_apply, addf_apply, broadcast_apply, y_at, z_at, s0_at]
  rfl
theorem m01_at : k0_pay12 (F := Ideal) x0 x1 (ix1 c) = scaledRot (unitQ (qcol x0 c)) (scol x1 c) 0 1 := by
  simp only [k0_pay12, mulf_apply, subf_apply, broadcast_apply, w_at, x_at, y_at, z_at, s1_at]
  rfl
theorem m02_at : k0_pay13 (F := Ideal) x0 x1 (ix1 c) = scaledRot (unitQ (qcol x0 c)) (scol x1 c) 0 2 := by
  simp only [k0_pay13, mulf_apply, addf_apply, broadcast_apply, w_at, x_at, y_at, z_at, s2_at]
  rfl
theorem m10_at : k0_pay15 (k0_pay8 (F := Ideal) x1) (k0_pay14 (F := Ideal) x0) (ix1 c) = scaledRot (unitQ (qcol x0 c)) (scol x1 c) 1 0 := by
  simp only [k0_pay15, mulf_apply, r10_at, s0_at]
  rfl
theorem m11_at : k0_pay16 (k0_pay5 (F := Ideal) x0) (k0_pay7 (F := Ideal) x0) (k0_pay9 (F := Ideal) x1) (ix1 c) = scaledRot (unitQ (qcol x0 c)) (scol x1 c) 1 1 := by
  simp only [k0_pay16, mulf_apply, subf_apply, addf_apply, broadcast_apply, x_at, z_at, s1_at]
  rfl
theorem m12_at : k0_pay17 (k0_pay4 (F := Ideal) x0) (k0_pay5 (F := Ideal) x0) (k0_pay6 (F := Ideal) x0) (k0_pay7 (F := Ideal) x0) (k0_pay10 (F := Ideal) x1) (ix1 c) = scaledRot (unitQ (qcol x0 c)) (scol x1 c) 1 2 := by
  simp only [k0_pay17, mulf_apply, subf_apply, broadcast_apply, w_at, x_at, y_at, z_at, s2_at]
  rfl
theorem m20_at : k0_pay18 (k0_pay4 (F := Ideal) x0) (k0_pay5 (F := Ideal) x0) (k0_pay6 (F := Ideal) x0) (k0_pay7 (F := Ideal) x0) (k0_pay8 (F := Ideal) x1) (ix1 c) = scaledRot (unitQ (qcol x0 c)) (scol x1 c) 2 0 := by
  simp only [k0_pay18, mulf_apply, subf_apply, broadcast_apply, w_at, x_at, y_at, z_at, s0_at]
  rfl
theorem m21_at : k0_pay19 (k0_pay4 (F := Ideal) x0) (k0_pay5 (F := Ideal) x0) (k0_pay6 (F := Ideal) x0) (k0_pay7 (F := Ideal) x0) (k0_pay9 (F := Ideal) x1) (ix1 c) = scaledRot (unitQ (qcol x0 c)) (scol x1 c) 2 1 := by
  simp only [k0_pay19, mulf_apply, addf_apply, broadcast_apply, w_at, x_at, y_at, z_at, s1_at]
  rfl
theorem m22_at : k0_pay20 (k0_pay5 (F := Ideal) x0) (k0_pay6 (F := Ideal) x0) (k0_pay10 (F := Ideal) x1) (ix1 c) = scaledRot (unitQ (qcol x0 c)) (scol x1 c) 2 2 := by
  simp only [k0_pay20, mulf_apply, subf_apply, addf_apply, broadcast_apply, x_at, y_at, s2_at]
  rfl

/-! ## The products of rows of M, and the stores' casts: pointwise, whatever vectors they are given -/

section Pointwise
variable (v11 v13 v15 v17 v19 v21 v23 v31 v37 v43 v48 v49 v57 v63 v69 v75 v83 v101 v : Lane)

theorem dot21_at : k0_pay21 (F := Ideal) v31 v37 v43 (ix1 c)
    = (v31 (ix1 c) * v31 (ix1 c) + v37 (ix1 c) * v37 (ix1 c)) + v43 (ix1 c) * v43 (ix1 c) := rfl
theorem dot22_at : k0_pay22 (F := Ideal) v11 v13 v15 v17 v19 v21 v23 v31 v37 v43 v48 (ix1 c)
    = (v31 (ix1 c) * k0_pay15 (F := Ideal) v19 v48 (ix1 c) + v37 (ix1 c) * k0_pay16 (F := Ideal) v13 v17 v21 (ix1 c))
      + v43 (ix1 c) * k0_pay17 (F := Ideal) v11 v13 v15 v17 v23 (ix1 c) := rfl
theorem dot23_at : k0_pay23 (F := Ideal) v11 v13 v15 v17 v19 v21 v23 v31 v37 v43 (ix1 c)
    = (v31 (ix1 c) * k0_pay18 (F := Ideal) v11 v13 v15 v17 v19 (ix1 c) + v37 (ix1 c) * k0_pay19 (F := Ideal) v11 v13 v15 v17 v21 (ix1 c))
      + v43 (ix1 c) * k0_pay20 (F := Ideal) v13 v15 v23 (ix1 c) := rfl
theorem dot24_at : k0_pay24 (F := Ideal) v13 v17 v19 v21 v48 (ix1 c)
    = k0_pay15 (F := Ideal) v19 v48 (ix1 c) * k0_pay15 (F := Ideal) v19 v48 (ix1 c)
      + k0_pay16 (F := Ideal) v13 v17 v21 (ix1 c) * k0_pay16 (F := Ideal) v13 v17 v21 (ix1 c) := rfl
theorem dot25_at : k0_pay25 (F := Ideal) v49 v57 v63 v69 v75 v83 (ix1 c)
    = (v49 (ix1 c) * v69 (ix1 c) + v57 (ix1 c) * v75 (ix1 c)) + v63 (ix1 c) * v83 (ix1 c) := rfl
theorem dot26_at : k0_pay26 (F := Ideal) v69 v75 v83 (ix1 c)
    = (v69 (ix1 c) * v69 (ix1 c) + v75 (ix1 c) * v75 (ix1 c)) + v83 (ix1 c) * v83 (ix1 c) := rfl

/-- A vector over the columns cast to one row, at (u, c): the vector at c. -/
theorem cast_at (u : Fin 1) : shapeCast S1x32000 v shapeCasts_S32000_S1x32000 (ix2 u c) = v (ix1 c) :=
  shapeCast_a_1a_apply v _ u c

theorem pay1_at (u : Fin 1) : k0_pay1 (F := Ideal) v (ix2 u c) = v (ix1 c) := cast_at c v u
theorem pay27_at (u : Fin 1) : k0_pay27 (F := Ideal) v (ix2 u c) = v (ix1 c) := cast_at c v u
theorem pay28_at (u : Fin 1) : k0_pay28 (F := Ideal) v (ix2 u c) = v (ix1 c) := cast_at c v u
theorem pay29_at (u : Fin 1) : k0_pay29 (F := Ideal) v (ix2 u c) = v (ix1 c) := cast_at c v u
theorem pay30_at (u : Fin 1) : k0_pay30 (F := Ideal) v (ix2 u c) = v (ix1 c) := cast_at c v u
theorem pay33_at (u : Fin 1) : k0_pay33 (F := Ideal) v (ix2 u c) = v (ix1 c) := cast_at c v u
theorem pay31_at (u : Fin 1) : k0_pay31 (F := Ideal) v63 v101 (ix2 u c) = v101 (ix1 c) + v63 (ix1 c) * v63 (ix1 c) :=
  cast_at c (addf v101 (mulf v63 v63)) u
theorem pay32_at (u : Fin 1) : k0_pay32 (F := Ideal) v49 v57 v63 v69 v75 v83 (ix2 u c) = k0_pay25 (F := Ideal) v49 v57 v63 v69 v75 v83 (ix1 c) :=
  cast_at c (k0_pay25 (F := Ideal) v49 v57 v63 v69 v75 v83) u
theorem pay34_at (u : Fin 1) : k0_pay34 (F := Ideal) v49 v57 v63 v69 v75 v83 (ix2 u c) = k0_pay25 (F := Ideal) v49 v57 v63 v69 v75 v83 (ix1 c) :=
  cast_at c (k0_pay25 (F := Ideal) v49 v57 v63 v69 v75 v83) u

end Pointwise

/-! ## The nine stored rows

Row r of the output block, as the body's store r takes it from the two input blocks, at column c: row r
of the specification's flattened covariance of column c. -/

theorem row0_at (u : Fin 1) :
    (k0_pay27 (F := Ideal) (k0_pay21 (F := Ideal) (k0_pay11 (F := Ideal) x0 x1) (k0_pay12 (F := Ideal) x0 x1) (k0_pay13 (F := Ideal) x0 x1))) (ix2 u c)
      = covRow (qcol x0 c) (scol x1 c) 0 := by
  rw [pay27_at, dot21_at, m00_at, m01_at, m02_at]
  rfl
theorem row1_at (u : Fin 1) :
    (k0_pay28 (F := Ideal) (k0_pay22 (F := Ideal) (k0_pay4 (F := Ideal) x0) (k0_pay5 (F := Ideal) x0) (k0_pay6 (F := Ideal) x0) (k0_pay7 (F := Ideal) x0) (k0_pay8 (F := Ideal) x1) (k0_pay9 (F := Ideal) x1) (k0_pay10 (F := Ideal) x1) (k0_pay11 (F := Ideal) x0 x1) (k0_pay12 (F := Ideal) x0 x1) (k0_pay13 (F := Ideal) x0 x1) (k0_pay14 (F := Ideal) x0))) (ix2 u c)
      = covRow (qcol x0 c) (scol x1 c) 1 := by
  rw [pay28_at, dot22_at, m00_at, m01_at, m02_at, m10_at, m11_at, m12_at]
  rfl
theorem row2_at (u : Fin 1) :
    (k0_pay29 (F := Ideal) (k0_pay23 (F := Ideal) (k0_pay4 (F := Ideal) x0) (k0_pay5 (F := Ideal) x0) (k0_pay6 (F := Ideal) x0) (k0_pay7 (F := Ideal) x0) (k0_pay8 (F := Ideal) x1) (k0_pay9 (F := Ideal) x1) (k0_pay10 (F := Ideal) x1) (k0_pay11 (F := Ideal) x0 x1) (k0_pay12 (F := Ideal) x0 x1) (k0_pay13 (F := Ideal) x0 x1))) (ix2 u c)
      = covRow (qcol x0 c) (scol x1 c) 2 := by
  rw [pay29_at, dot23_at, m00_at, m01_at, m02_at, m20_at, m21_at, m22_at]
  rfl
theorem row3_at (u : Fin 1) :
    (k0_pay30 (F := Ideal) (k0_pay22 (F := Ideal) (k0_pay4 (F := Ideal) x0) (k0_pay5 (F := Ideal) x0) (k0_pay6 (F := Ideal) x0) (k0_pay7 (F := Ideal) x0) (k0_pay8 (F := Ideal) x1) (k0_pay9 (F := Ideal) x1) (k0_pay10 (F := Ideal) x1) (k0_pay11 (F := Ideal) x0 x1) (k0_pay12 (F := Ideal) x0 x1) (k0_pay13 (F := Ideal) x0 x1) (k0_pay14 (F := Ideal) x0))) (ix2 u c)
      = covRow (qcol x0 c) (scol x1 c) 3 := by
  rw [pay30_at, dot22_at, m00_at, m01_at, m02_at, m10_at, m11_at, m12_at]
  rfl
theorem row4_at (u : Fin 1) :
    (k0_pay31 (F := Ideal) (k0_pay17 (F := Ideal) (k0_pay4 (F := Ideal) x0) (k0_pay5 (F := Ideal) x0) (k0_pay6 (F := Ideal) x0) (k0_pay7 (F := Ideal) x0) (k0_pay10 (F := Ideal) x1)) (k0_pay24 (F := Ideal) (k0_pay5 (F := Ideal) x0) (k0_pay7 (F := Ideal) x0) (k0_pay8 (F := Ideal) x1) (k0_pay9 (F := Ideal) x1) (k0_pay14 (F := Ideal) x0))) (ix2 u c)
      = covRow (qcol x0 c) (scol x1 c) 4 := by
  rw [pay31_at, dot24_at, m10_at, m11_at, m12_at]
  rfl
theorem row5_at (u : Fin 1) :
    (k0_pay32 (F := Ideal) (k0_pay15 (F := Ideal) (k0_pay8 (F := Ideal) x1) (k0_pay14 (F := Ideal) x0)) (k0_pay16 (F := Ideal) (k0_pay5 (F := Ideal) x0) (k0_pay7 (F := Ideal) x0) (k0_pay9 (F := Ideal) x1)) (k0_pay17 (F := Ideal) (k0_pay4 (F := Ideal) x0) (k0_pay5 (F := Ideal) x0) (k0_pay6 (F := Ideal) x0) (k0_pay7 (F := Ideal) x0) (k0_pay10 (F := Ideal) x1)) (k0_pay18 (F := Ideal) (k0_pay4 (F := Ideal) x0) (k0_pay5 (F := Ideal) x0) (k0_pay6 (F := Ideal) x0) (k0_pay7 (F := Ideal) x0) (k0_pay8 (F := Ideal) x1)) (k0_pay19 (F := Ideal) (k0_pay4 (F := Ideal) x0) (k0_pay5 (F := Ideal) x0) (k0_pay6 (F := Ideal) x0) (k0_pay7 (F := Ideal) x0) (k0_pay9 (F := Ideal) x1)) (k0_pay20 (F := Ideal) (k0_pay5 (F := Ideal) x0) (k0_pay6 (F := Ideal) x0) (k0_pay10 (F := Ideal) x1))) (ix2 u c)
      = covRow (qcol x0 c) (scol x1 c) 5 := by
  rw [pay32_at, dot25_at, m10_at, m11_at, m12_at, m20_at, m21_at, m22_at]
  rfl
theorem row6_at (u : Fin 1) :
    (k0_pay33 (F := Ideal) (k0_pay23 (F := Ideal) (k0_pay4 (F := Ideal) x0) (k0_pay5 (F := Ideal) x0) (k0_pay6 (F := Ideal) x0) (k0_pay7 (F := Ideal) x0) (k0_pay8 (F := Ideal) x1) (k0_pay9 (F := Ideal) x1) (k0_pay10 (F := Ideal) x1) (k0_pay11 (F := Ideal) x0 x1) (k0_pay12 (F := Ideal) x0 x1) (k0_pay13 (F := Ideal) x0 x1))) (ix2 u c)
      = covRow (qcol x0 c) (scol x1 c) 6 := by
  rw [pay33_at, dot23_at, m00_at, m01_at, m02_at, m20_at, m21_at, m22_at]
  rfl
theorem row7_at (u : Fin 1) :
    (k0_pay34 (F := Ideal) (k0_pay15 (F := Ideal) (k0_pay8 (F := Ideal) x1) (k0_pay14 (F := Ideal) x0)) (k0_pay16 (F := Ideal) (k0_pay5 (F := Ideal) x0) (k0_pay7 (F := Ideal) x0) (k0_pay9 (F := Ideal) x1)) (k0_pay17 (F := Ideal) (k0_pay4 (F := Ideal) x0) (k0_pay5 (F := Ideal) x0) (k0_pay6 (F := Ideal) x0) (k0_pay7 (F := Ideal) x0) (k0_pay10 (F := Ideal) x1)) (k0_pay18 (F := Ideal) (k0_pay4 (F := Ideal) x0) (k0_pay5 (F := Ideal) x0) (k0_pay6 (F := Ideal) x0) (k0_pay7 (F := Ideal) x0) (k0_pay8 (F := Ideal) x1)) (k0_pay19 (F := Ideal) (k0_pay4 (F := Ideal) x0) (k0_pay5 (F := Ideal) x0) (k0_pay6 (F := Ideal) x0) (k0_pay7 (F := Ideal) x0) (k0_pay9 (F := Ideal) x1)) (k0_pay20 (F := Ideal) (k0_pay5 (F := Ideal) x0) (k0_pay6 (F := Ideal) x0) (k0_pay10 (F := Ideal) x1))) (ix2 u c)
      = covRow (qcol x0 c) (scol x1 c) 7 := by
  rw [pay34_at, dot25_at, m10_at, m11_at, m12_at, m20_at, m21_at, m22_at]
  rfl
theorem row8_at (u : Fin 1) :
    (k0_pay1 (F := Ideal) (k0_pay26 (F := Ideal) (k0_pay18 (F := Ideal) (k0_pay4 (F := Ideal) x0) (k0_pay5 (F := Ideal) x0) (k0_pay6 (F := Ideal) x0) (k0_pay7 (F := Ideal) x0) (k0_pay8 (F := Ideal) x1)) (k0_pay19 (F := Ideal) (k0_pay4 (F := Ideal) x0) (k0_pay5 (F := Ideal) x0) (k0_pay6 (F := Ideal) x0) (k0_pay7 (F := Ideal) x0) (k0_pay9 (F := Ideal) x1)) (k0_pay20 (F := Ideal) (k0_pay5 (F := Ideal) x0) (k0_pay6 (F := Ideal) x0) (k0_pay10 (F := Ideal) x1)))) (ix2 u c)
      = covRow (qcol x0 c) (scol x1 c) 8 := by
  rw [pay1_at, dot26_at, m20_at, m21_at, m22_at]
  rfl

/-! ## The block -/

theorem hz2 : (![0, 0] : Fin 2 → Nat) = fun _ => 0 := funext fun a => by fin_cases a <;> rfl

/-- The output block as one function of its index (r, c): row r of the flattened covariance of column c. -/
def blockFn (x0 : QBlk) (x1 : SBlk) : S9x32000.Idx → EReal := fun y => covRow (qcol x0 (y 1)) (scol x1 (y 1)) (y 0).val

/-- A one-row store at row k reaches, from its local index, the block index (k, c). -/
theorem emb_row (k : Nat) (hk : k < 9) (inb : ∀ a, (![k, 0] : Fin 2 → Nat) a + S1x32000.size a ≤ S9x32000.size a) (x : S1x32000.Idx) :
    (Rect.unit (s := S9x32000) ![k, 0] S1x32000.size inb).emb x = ix2 (⟨k, hk⟩ : Fin 9) (x 1) :=
  funext fun a => Fin.ext (by
    match a with
    | ⟨0, _⟩ => have h : (x 0).val < 1 := (x 0).isLt; show k + 1 * (x 0).val = k; omega
    | ⟨1, _⟩ => show 0 + 1 * (x 1).val = (x 1).val; omega)

/-- A one-row store whose payload is row k of the flattened covariance agrees with the block function where it lands. -/
theorem piece_ok (k : Nat) (hk : k < 9) (inb : ∀ a, (![k, 0] : Fin 2 → Nat) a + S1x32000.size a ≤ S9x32000.size a)
    (pay : FVec Ideal S1x32000 .f32)
    (h : ∀ (c : Fin 32000) (u : Fin 1), pay (ix2 u c) = covRow (qcol x0 c) (scol x1 c) k) (x : S1x32000.Idx) :
    pay x = blockFn x0 x1 ((Rect.unit (s := S9x32000) ![k, 0] S1x32000.size inb).emb x) := by
  rw [emb_row k hk inb x]
  exact (congrArg pay (eq_ix2 x)).trans (h (x 1) (x 0))

/-- What the body leaves in the output block: its nine stores tile the block, and each store's payload is its
    row of the block function. -/
theorem block_eq : out0_2 (F := Ideal) x0 x1 = blockFn x0 x1 := by
  funext y
  unfold out0_2
  simp only [View.ld_unit_zero (S := S4x32000) hz2, View.ld_unit_zero (S := S3x32000) hz2]
  refine View.canon_apply_of_pieces (Val := Elt Ideal) (e := .f32) (blockFn x0 x1) _ ?_ y (cover0_2 _ _ _ _ _ _ _ _ _ y)
  intro p hp
  simp only [List.mem_cons, List.mem_nil_iff, or_false] at hp
  rcases hp with rfl | rfl | rfl | rfl | rfl | rfl | rfl | rfl | rfl
  · exact fun x => piece_ok x0 x1 8 (by decide) inb_S9x32000_S1x32000_8_0 _ (fun c u => row8_at x0 x1 c u) x
  · exact fun x => piece_ok x0 x1 7 (by decide) inb_S9x32000_S1x32000_7_0 _ (fun c u => row7_at x0 x1 c u) x
  · exact fun x => piece_ok x0 x1 6 (by decide) inb_S9x32000_S1x32000_6_0 _ (fun c u => row6_at x0 x1 c u) x
  · exact fun x => piece_ok x0 x1 5 (by decide) inb_S9x32000_S1x32000_5_0 _ (fun c u => row5_at x0 x1 c u) x
  · exact fun x => piece_ok x0 x1 4 (by decide) inb_S9x32000_S1x32000_4_0 _ (fun c u => row4_at x0 x1 c u) x
  · exact fun x => piece_ok x0 x1 3 (by decide) inb_S9x32000_S1x32000_3_0 _ (fun c u => row3_at x0 x1 c u) x
  · exact fun x => piece_ok x0 x1 2 (by decide) inb_S9x32000_S1x32000_2_0 _ (fun c u => row2_at x0 x1 c u) x
  · exact fun x => piece_ok x0 x1 1 (by decide) inb_S9x32000_S1x32000_1_0 _ (fun c u => row1_at x0 x1 c u) x
  · exact fun x => piece_ok x0 x1 0 (by decide) inb_S9x32000_S1x32000_0_0 _ (fun c u => row0_at x0 x1 c u) x

end Cert.KernelValue

end
-- ==== Proof.KernelArray.lean ====
/-
  From the blocks to the kernel's whole result array.

  The pipeline runs the body at 250 grid points; point t reads columns 32000·t … 32000·t + 31999 of the
  transposed inputs (all 4, resp. 3, rows) and writes the same columns of the [9, N] result (all 9 rows).
  So what point t writes back is block t of ONE function of the whole arrays: at (r, n), row r of the
  flattened covariance of column n of the two transposed inputs.  The blocks tile the array (column n
  lies in block n / 32000), hence the array after the run is that function.
-/
import proofs.«100342_j36670430773888_1_alg».proof.Proof.KernelBlock

set_option maxRecDepth 16384

noncomputable section

namespace Cert.KernelValue

open Cert.KernelIdeal Cert.KernelIdeal.Gen Idealize.ShloMosaic Idealize.ShloMosaic.TcCoe Idealize.ShloMosaic.ValueIdx Idealize.SL.Sem
open Idealize.ShloMosaic.Pipeline (Dat)
open Cert.Cov

variable (m : (ℓ : Loc nD τ sig) → Buf (Elt Ideal) ℓ) (ρ : Dev nD → PrngReg)

/-- The result array as one function of the transposed inputs: at (r, n), row r of the flattened covariance
    of column n. -/
def arrFn (a0 : S4x8000000.Idx → EReal) (a1 : S3x8000000.Idx → EReal) : S9x8000000.Idx → EReal :=
  fun i => covRow (fun k => a0 (ix2 k (i 1))) (fun j => a1 (ix2 j (i 1))) (i 0).val

/-- The printed index maps, decided over the grid: every window's block index is (0, t). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Column p of block t is a column of the array. -/
theorem col_lt (t : Fin cfg0.N) (p : Fin 32000) : t.val * 32000 + p.val < 8000000 := by
  have h1 : t.val < 250 := Nat.lt_of_lt_of_eq t.isLt N_0
  have h2 := p.isLt
  omega

/-- The quaternion block at point t, read at (k, p): the transposed rotation input at (k, 32000·t + p). -/
theorem iblk0_at (c : Dev nD) (t : Fin cfg0.N) (k : Fin 4) (p : Fin 32000) :
    (iblk (F := Ideal) m c 0 t : QBlk) (ix2 k p) = V m c main_v0 (ix2 k ⟨t.val * 32000 + p.val, col_lt t p⟩) := by
  obtain ⟨e0, e1, -, -, -, -⟩ := idx_facts t
  show V m c main_v0 (((cfg0.win 0).blk t).view.emb (ix2 k p)) = _
  refine congrArg (V m c main_v0) (funext fun a => Fin.ext ?_)
  match a with
  | ⟨0, _⟩ => show win0_0.index t (0 : Fin 2) * 4 + 1 * k.val = k.val; omega
  | ⟨1, _⟩ => show win0_0.index t (1 : Fin 2) * 32000 + 1 * p.val = t.val * 32000 + p.val; omega

/-- The scale block at point t, read at (j, p): the transposed scale input at (j, 32000·t + p). -/
theorem iblk1_at (c : Dev nD) (t : Fin cfg0.N) (j : Fin 3) (p : Fin 32000) :
    (iblk (F := Ideal) m c 1 t : SBlk) (ix2 j p) = V m c main_v1 (ix2 j ⟨t.val * 32000 + p.val, col_lt t p⟩) := by
  obtain ⟨-, -, e2, e3, -, -⟩ := idx_facts t
  show V m c main_v1 (((cfg0.win 1).blk t).view.emb (ix2 j p)) = _
  refine congrArg (V m c main_v1) (funext fun a => Fin.ext ?_)
  match a with
  | ⟨0, _⟩ => show win0_1.index t (0 : Fin 2) * 3 + 1 * j.val = j.val; omega
  | ⟨1, _⟩ => show win0_1.index t (1 : Fin 2) * 32000 + 1 * p.val = t.val * 32000 + p.val; omega

/-- WHAT POINT t WRITES BACK is block t of the whole-array function of the transposed inputs. -/
theorem flushed_eq (c : Dev nD) (t : Fin cfg0.N) :
    (dats (F := Ideal) m 0 c).flushed 2 t = ((cfg0.win 2).blk t).view.read (Elt Ideal) (arrFn (V m c main_v0) (V m c main_v1)) := by
  show (cfg0.win 2).cut (grid0.coords t) ((dats m 0 c).after 2 t) = _
  rw [after0_2, block_eq]
  obtain ⟨-, -, -, -, e4, e5⟩ := idx_facts t
  funext j
  show blockFn (iblk m c 0 t) (iblk m c 1 t) j = arrFn (V m c main_v0) (V m c main_v1) (((cfg0.win 2).blk t).view.emb j)
  have hemb : ((cfg0.win 2).blk t).view.emb j = (ix2 (j 0) ⟨t.val * 32000 + (j 1).val, col_lt t (j 1)⟩ : S9x8000000.Idx) :=
    funext fun a => Fin.ext (by
      match a with
      | ⟨0, _⟩ => show win0_2.index t (0 : Fin 2) * 9 + 1 * (j 0).val = (j 0).val; omega
      | ⟨1, _⟩ => show win0_2.index t (1 : Fin 2) * 32000 + 1 * (j 1).val = t.val * 32000 + (j 1).val; omega)
  have hq : qcol (iblk m c 0 t) (j 1) = fun k => V m c main_v0 (ix2 k ⟨t.val * 32000 + (j 1).val, col_lt t (j 1)⟩) :=
    funext fun k => iblk0_at m c t k (j 1)
  have hs : scol (iblk m c 1 t) (j 1) = fun j' => V m c main_v1 (ix2 j' ⟨t.val * 32000 + (j 1).val, col_lt t (j 1)⟩) :=
    funext fun j' => iblk1_at m c t j' (j 1)
  rw [hemb]
  unfold blockFn arrFn
  rw [hq, hs]

/-- An index of the array is in point t's block iff each coordinate is in the block's range on its axis. -/
theorem mem_blk (t : Fin cfg0.N) (i : S9x8000000.Idx) :
    i ∈ ((cfg0.win 2).blk t).view.set ↔ ∀ a : Fin 2, win0_2.index t a * S9x32000.size a ≤ (i a).val ∧ (i a).val < win0_2.index t a * S9x32000.size a + S9x32000.size a := by
  show i ∈ ((View.whole main_v2).slice (win0_2.rect t)).set ↔ _
  rw [View.set_slice_whole, Rect.mem_set_unit]
  exact Iff.rfl

/-- Every index of the array lies in some point's block: column n in block n / 32000. -/
theorem cover (i : S9x8000000.Idx) : ∃ t : Fin cfg0.N, (cfg0.win 2).flush t = true ∧ i ∈ ((cfg0.win 2).blk t).view.set := by
  have hi0 : (i 0).val < 9 := (i 0).isLt
  have hi1 : (i 1).val < 8000000 := (i 1).isLt
  have hN : cfg0.N = 250 := N_0
  have ht : (i 1).val / 32000 < cfg0.N := by rw [hN]; omega
  obtain ⟨-, -, -, -, e4, e5⟩ := idx_facts ⟨(i 1).val / 32000, ht⟩
  refine ⟨⟨(i 1).val / 32000, ht⟩, flush0_2 _, ?_⟩
  rw [mem_blk]
  intro a
  match a with
  | ⟨0, _⟩ =>
    show win0_2.index ⟨(i 1).val / 32000, ht⟩ (0 : Fin 2) * 9 ≤ (i 0).val ∧ (i 0).val < win0_2.index ⟨(i 1).val / 32000, ht⟩ (0 : Fin 2) * 9 + 9
    omega
  | ⟨1, _⟩ =>
    show win0_2.index ⟨(i 1).val / 32000, ht⟩ (1 : Fin 2) * 32000 ≤ (i 1).val ∧ (i 1).val < win0_2.index ⟨(i 1).val / 32000, ht⟩ (1 : Fin 2) * 32000 + 32000
    have e5' : win0_2.index ⟨(i 1).val / 32000, ht⟩ (1 : Fin 2) = (i 1).val / 32000 := e5
    omega

/-- THE RESULT ARRAY after the run: the whole-array function of the transposed inputs as the region finds them. -/
theorem final (c : Dev nD) : (dats (F := Ideal) m 0 c).arrAt 2 cfg0.N = arrFn (V m c main_v0) (V m c main_v1) :=
  (dats m 0 c).arrAt_eq_of_cover 2 _ (fun t _ => flushed_eq m c t) cover

end Cert.KernelValue

end
-- ==== Proof.Result.lean ====
/-
  The result both programs end with, as one function of the two argument arrays: at (n, a, b) the
  covariance entry (a, b) of row n of the rotation input (a quaternion) and of the scale input.
-/
import proofs.«100342_j36670430773888_1_alg».proof.Proof.Spec
import Idealize.ShloMosaic.Lib.ValueIdx

noncomputable section

namespace Cert.Cov

open Idealize.ShloMosaic Idealize.ShloMosaic.ValueIdx

/-- The [N, 3, 3] covariance array of an [N, 4] quaternion array and an [N, 3] scale array. -/
def covOf (x0 : (⟨2, ![8000000, 4]⟩ : Shape).Idx → EReal) (x1 : (⟨2, ![8000000, 3]⟩ : Shape).Idx → EReal) :
    (⟨3, ![8000000, 3, 3]⟩ : Shape).Idx → EReal :=
  fun i => cov (fun k => x0 (ix2 (i 0) k)) (fun j => x1 (ix2 (i 0) j)) (i 1) (i 2)

end Cert.Cov

end
-- ==== Proof.KernelRun.lean ====
/-
  The idealized kernel's run, with its result named.

  Around the region @main transposes the two inputs (so that the long axis is the blocks' column axis)
  and, after it, transposes the [9, N] array back and reshapes [N, 9] to [N, 3, 3].  Read at (n, a, b)
  the result is the region's array at (3a + b, n): row 3a + b of the flattened covariance of column n of
  the transposed inputs, that is, of row n of the inputs; and row 3a + b of the flattened covariance is
  the entry (a, b).
-/
import proofs.«100342_j36670430773888_1_alg».proof.Proof.KernelArray
import proofs.«100342_j36670430773888_1_alg».proof.Proof.Result
import Idealize.ShloMosaic.Lib.StableHlo.Run

set_option maxRecDepth 16384

noncomputable section

namespace Cert.KernelValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)
open Cert.Cov

variable (m : (ℓ : Loc nD τ sig) → Buf (Elt Ideal) ℓ) (ρ : Dev nD → PrngReg)

/-- The region finds the rotation input transposed, -/
theorem V_v0 (c : Dev nD) : (V m c main_v0 : S4x8000000.Idx → EReal)
    = transpose S4x8000000 [1, 0] (m ((c : Thread nD τ).loc main_arg0)) transposes_S8000000x4_S4x8000000_1_0 := by
  show StableHlo.after hostOps0 (fun b => m (c, b)) (Proc.devRef .tc main_v0) = _
  after_results
/-- and the scale input transposed. -/
theorem V_v1 (c : Dev nD) : (V m c main_v1 : S3x8000000.Idx → EReal)
    = transpose S3x8000000 [1, 0] (m ((c : Thread nD τ).loc main_arg1)) transposes_S8000000x3_S3x8000000_1_0 := by
  show StableHlo.after hostOps0 (fun b => m (c, b)) (Proc.devRef .tc main_v1) = _
  after_results

/-- After the lines that follow the region, the result buffer holds the region's array transposed and reshaped. -/
theorem tail_v4 (c : Dev nD) :
    Pipeline.afterTail₀ cfgs (dats (F := Ideal) m) 0 (V0 m) [hostOps1] c main_v4
      = shapeCast S8000000x3x3 (transpose S8000000x9 [1, 0] ((dats (F := Ideal) m 0 c).arrAt 2 cfg0.N) transposes_S9x8000000_S8000000x9_1_0) shapeCasts_S8000000x9_S8000000x3x3 := by
  unfold Pipeline.afterTail₀
  show StableHlo.after hostOps1 _ (Proc.devRef .tc main_v4) = _
  after_results
  exact congrArg (fun A => shapeCast S8000000x3x3 (transpose S8000000x9 [1, 0] A transposes_S9x8000000_S8000000x9_1_0) shapeCasts_S8000000x9_S8000000x3x3)
    (Pipeline.withArrays_arr spec0 launch0.win.arr_inj c (V0 m c) (fun w => (dats (F := Ideal) m 0 c).arrAt w cfg0.N) 2)

/-- Row 3a + b of a 9-row array. -/
theorem flat_lt (a b : Fin 3) : 3 * a.val + b.val < 9 := by have := a.isLt; have := b.isLt; omega

/-- The kernel's result at (n, a, b): the covariance entry (a, b) of row n of the inputs. -/
theorem result_at (c : Dev nD) (n : Fin 8000000) (a b : Fin 3) :
    Pipeline.afterTail₀ cfgs (dats (F := Ideal) m) 0 (V0 m) [hostOps1] c main_v4 (ix3 n a b)
      = covOf (m ((c : Thread nD τ).loc main_arg0)) (m ((c : Thread nD τ).loc main_arg1)) (ix3 n a b) := by
  rw [tail_v4, final]
  rw [shapeCast_apply _ shapeCasts_S8000000x9_S8000000x3x3 (ix3 n a b) (ix2 n ⟨3 * a.val + b.val, flat_lt a b⟩)
    (by rw [Shape.rowMajor_val_two, Shape.rowMajor_val_three]
        show n.val * 9 + (3 * a.val + b.val) = (n.val * 3 + a.val) * 3 + b.val
        omega)]
  rw [transpose_ix2_apply]
  have h0 : (fun k : Fin 4 => (V m c main_v0 : S4x8000000.Idx → EReal) (ix2 k n)) = fun k => m ((c : Thread nD τ).loc main_arg0) (ix2 n k) :=
    funext fun k => by rw [V_v0, transpose_ix2_apply]
  have h1 : (fun j : Fin 3 => (V m c main_v1 : S3x8000000.Idx → EReal) (ix2 j n)) = fun j => m ((c : Thread nD τ).loc main_arg1) (ix2 n j) :=
    funext fun j => by rw [V_v1, transpose_ix2_apply]
  show covRow (fun k : Fin 4 => (V m c main_v0 : S4x8000000.Idx → EReal) (ix2 k n)) (fun j : Fin 3 => (V m c main_v1 : S3x8000000.Idx → EReal) (ix2 j n)) (3 * a.val + b.val)
    = cov (fun k => m ((c : Thread nD τ).loc main_arg0) (ix2 n k)) (fun j => m ((c : Thread nD τ).loc main_arg1) (ix2 n j)) a b
  rw [h0, h1]
  exact covRow_eq_cov _ _ a b

/-- The kernel's result array as one function of the argument arrays. -/
theorem result_eq (c : Dev nD) :
    Pipeline.afterTail₀ cfgs (dats (F := Ideal) m) 0 (V0 m) [hostOps1] c main_v4
      = covOf (m ((c : Thread nD τ).loc main_arg0)) (m ((c : Thread nD τ).loc main_arg1)) :=
  funext fun i => (congrArg _ (eq_ix3 i)).trans ((result_at m c (i 0) (i 1) (i 2)).trans (congrArg _ (eq_ix3 i).symm))

/-- THE RUN: every weakly fair execution of the idealized kernel terminates with the result buffer at the
    covariance array of the arguments, and the arguments unchanged. -/
theorem run : θ_run defs (onTc (τ := τ) (main (F := Ideal))) ⟨m, fun _ => 0, ρ⟩ fun r => ∀ c : Dev nD,
      r.2.mem ((c : Thread nD τ).loc main_v4) = covOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelValue

end
-- ==== Proof.LibStack3.lean ====
/-
  A concatenation of THREE pieces of one shape, each of extent 1 along the joined axis, read at an
  index: the piece named by the index's coordinate on that axis, at the index with the same other
  coordinates (whatever it has on the joined axis, which has one position).  This is jnp.stack of
  three arrays along a new axis, as it lowers: three broadcasts to a unit axis, then one join.
-/
import Idealize.ShloMosaic.Lib.Pipeline.Value

namespace Cert.LibStack3

open Idealize.ShloMosaic

variable {α : Type}

/-- Three unit-extent pieces joined along axis `a`: at an index whose coordinate on `a` is `k`, the
    join reads piece `k` at any index `i` of the piece that agrees with it off the joined axis. -/
theorem concatenate_three_unit_apply {t s₁ : Shape} (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (h1 : s₁.size (a.cast hr.symm) = 1) (j : t.Idx) (k : Fin 3) (hk : (j a).val = k.val)
    (i : s₁.Idx) (hi : ∀ b : Fin s₁.rank, b.cast hr ≠ a → (i b).val = (j (b.cast hr)).val) :
    concatenate t a [⟨s₁, x0⟩, ⟨s₁, x1⟩, ⟨s₁, x2⟩] h j = (![x0, x1, x2] k) i :=
  concatenate_ofFn_unit_apply a (N := 3) (fun n => (![x0, x1, x2] n)) h hr h1 j k hk i hi

/-- At coordinate 0 on the joined axis: the first piece. -/
theorem concatenate_three_unit_apply0 {t s₁ : Shape} (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (h1 : s₁.size (a.cast hr.symm) = 1) (j : t.Idx) (hk : (j a).val = 0)
    (i : s₁.Idx) (hi : ∀ b : Fin s₁.rank, b.cast hr ≠ a → (i b).val = (j (b.cast hr)).val) :
    concatenate t a [⟨s₁, x0⟩, ⟨s₁, x1⟩, ⟨s₁, x2⟩] h j = x0 i :=
  concatenate_three_unit_apply a x0 x1 x2 h hr h1 j 0 hk i hi

/-- At coordinate 1 on the joined axis: the second piece. -/
theorem concatenate_three_unit_apply1 {t s₁ : Shape} (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (h1 : s₁.size (a.cast hr.symm) = 1) (j : t.Idx) (hk : (j a).val = 1)
    (i : s₁.Idx) (hi : ∀ b : Fin s₁.rank, b.cast hr ≠ a → (i b).val = (j (b.cast hr)).val) :
    concatenate t a [⟨s₁, x0⟩, ⟨s₁, x1⟩, ⟨s₁, x2⟩] h j = x1 i :=
  concatenate_three_unit_apply a x0 x1 x2 h hr h1 j 1 hk i hi

/-- At coordinate 2 on the joined axis: the third piece. -/
theorem concatenate_three_unit_apply2 {t s₁ : Shape} (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (h1 : s₁.size (a.cast hr.symm) = 1) (j : t.Idx) (hk : (j a).val = 2)
    (i : s₁.Idx) (hi : ∀ b : Fin s₁.rank, b.cast hr ≠ a → (i b).val = (j (b.cast hr)).val) :
    concatenate t a [⟨s₁, x0⟩, ⟨s₁, x1⟩, ⟨s₁, x2⟩] h j = x2 i :=
  concatenate_three_unit_apply a x0 x1 x2 h hr h1 j 2 hk i hi

end Cert.LibStack3
-- ==== Proof.RefValue.lean ====
/-
  What the reference computes, read at one index.

  At the index (n, a, b) of its [N, 3, 3] result the reference's contraction is the sum over j of
  M[n, a, j] · M[n, b, j], where M = R · s with the scale broadcast along the rows.  R is three
  stacked rows, each a stack of three entries; an entry is one of the nine quadratic forms of the
  normalised quaternion, whose components are columns 0..3 of q / ‖q‖ with ‖q‖ = sqrt (0 + Σ q²).
  Reading the stacks (three unit-extent pieces joined along an axis) and the broadcasts at their
  indices gives M[n, a, j] as the specification's scaled rotation entry of row n of the inputs, and
  the contraction as the specification's covariance entry.
-/
import proofs.«100342_j36670430773888_1_alg».proof.Proof.Gen.ReferenceIdeal.Read
import proofs.«100342_j36670430773888_1_alg».proof.Proof.Spec
import proofs.«100342_j36670430773888_1_alg».proof.Proof.LibStack3

noncomputable section

namespace Cert.RefValue

open Cert.ReferenceIdeal Cert.ReferenceIdeal.Gen Cert.ReferenceIdeal.Read Idealize.ShloMosaic Idealize.ShloMosaic.ValueIdx
open Cert.Cov Cert.LibStack3

/-- The two argument arrays, as the reference's stages take them. -/
abbrev QArr := (⟨S8000000x4, .f32⟩ : BufTy).Contents (Elt Ideal)
abbrev SArr := (⟨S8000000x3, .f32⟩ : BufTy).Contents (Elt Ideal)

/-- Row n of the rotation input: a quaternion. -/
def quat (x0 : QArr) (n : Fin 8000000) : Fin 4 → EReal := fun k => x0 (ix2 n k)
/-- Row n of the scale input. -/
def scl (x1 : SArr) (n : Fin 8000000) : Fin 3 → EReal := fun j => x1 (ix2 n j)

variable (x0 : QArr) (x1 : SArr) (n : Fin 8000000)

/-! ## The normalised quaternion -/

/-- The norm's sum at (n, k) runs over row n. -/
theorem idx_norm (k k' : Fin 4) :
    idx_main_call0_v1 (idx_main_call0_v2 (idx_main_v1 (ix2 n k))) k' = ix2 n k' :=
  funext fun a => Fin.ext (by match a with | ⟨0, _⟩ => rfl | ⟨1, _⟩ => rfl)

/-- q / ‖q‖ at (n, k): component k of the normalised row n. -/
theorem unit_at (k : Fin 4) : val_main_v2 (F := Ideal) x0 (ix2 n k) = unitQ (quat x0 n) k := by
  rw [val_main_v2_apply, val_main_v1_apply, val_main_v0_apply, val_main_call0_v2_apply, val_main_call0_v1_apply]
  simp only [val_main_call0_v0_apply, val_main_call0_cst_apply, idx_norm, Ideal.hostDivf_def, Ideal.hostUnary_sqrt_def,
    Ideal.mulf_def, Ideal.ofBits_def, Ideal.ofBits_zero_f32, zero_add, unitQ, sqLen, quat]

theorem idx_c0 : idx_main_v3 (idx_main_v4 (ix1 n)) = ix2 n (0 : Fin 4) :=
  funext fun a => Fin.ext (by match a with | ⟨0, _⟩ => exact Nat.div_one _ | ⟨1, _⟩ => rfl)
theorem idx_c1 : idx_main_v5 (idx_main_v6 (ix1 n)) = ix2 n (1 : Fin 4) :=
  funext fun a => Fin.ext (by match a with | ⟨0, _⟩ => exact Nat.div_one _ | ⟨1, _⟩ => rfl)
theorem idx_c2 : idx_main_v7 (idx_main_v8 (ix1 n)) = ix2 n (2 : Fin 4) :=
  funext fun a => Fin.ext (by match a with | ⟨0, _⟩ => exact Nat.div_one _ | ⟨1, _⟩ => rfl)
theorem idx_c3 : idx_main_v9 (idx_main_v10 (ix1 n)) = ix2 n (3 : Fin 4) :=
  funext fun a => Fin.ext (by match a with | ⟨0, _⟩ => exact Nat.div_one _ | ⟨1, _⟩ => rfl)

/-- The four columns of the normalised quaternion, each as a vector over n. -/
theorem w_at : val_main_v4 (F := Ideal) x0 (ix1 n) = unitQ (quat x0 n) 0 := by
  rw [val_main_v4_apply, val_main_v3_apply, idx_c0, unit_at]
theorem x_at : val_main_v6 (F := Ideal) x0 (ix1 n) = unitQ (quat x0 n) 1 := by
  rw [val_main_v6_apply, val_main_v5_apply, idx_c1, unit_at]
theorem y_at : val_main_v8 (F := Ideal) x0 (ix1 n) = unitQ (quat x0 n) 2 := by
  rw [val_main_v8_apply, val_main_v7_apply, idx_c2, unit_at]
theorem z_at : val_main_v10 (F := Ideal) x0 (ix1 n) = unitQ (quat x0 n) 3 := by
  rw [val_main_v10_apply, val_main_v9_apply, idx_c3, unit_at]

/-! ## The nine entries of the rotation matrix, each a vector over n

Each is a short chain of pointwise stages over the quaternion's columns and the two splatted words;
the chain is rewritten stage by stage, outermost first. -/

theorem r00_at : val_main_v17 (F := Ideal) x0 (ix1 n) = one - two * (unitQ (quat x0 n) 2 * unitQ (quat x0 n) 2 + unitQ (quat x0 n) 3 * unitQ (quat x0 n) 3) := by
  rw [val_main_v17_apply, val_main_v16_apply, val_main_cst_0_apply, val_main_v15_apply, val_main_v14_apply, val_main_cst_apply,
    val_main_v13_apply, val_main_v11_apply, val_main_v12_apply, y_at, z_at]
  simp only [Ideal.subf_def, Ideal.mulf_def, Ideal.addf_def, Ideal.ofBits_def, one, two]
theorem r01_at : val_main_v22 (F := Ideal) x0 (ix1 n) = two * (unitQ (quat x0 n) 1 * unitQ (quat x0 n) 2 - unitQ (quat x0 n) 0 * unitQ (quat x0 n) 3) := by
  rw [val_main_v22_apply, val_main_v21_apply, val_main_cst_1_apply, val_main_v20_apply, val_main_v18_apply, val_main_v19_apply,
    x_at, y_at, w_at, z_at]
  simp only [Ideal.subf_def, Ideal.mulf_def, Ideal.addf_def, Ideal.ofBits_def, one, two]
theorem r02_at : val_main_v27 (F := Ideal) x0 (ix1 n) = two * (unitQ (quat x0 n) 1 * unitQ (quat x0 n) 3 + unitQ (quat x0 n) 0 * unitQ (quat x0 n) 2) := by
  rw [val_main_v27_apply, val_main_v26_apply, val_main_cst_2_apply, val_main_v25_apply, val_main_v23_apply, val_main_v24_apply,
    x_at, z_at, w_at, y_at]
  simp only [Ideal.subf_def, Ideal.mulf_def, Ideal.addf_def, Ideal.ofBits_def, one, two]
theorem r10_at : val_main_v36 (F := Ideal) x0 (ix1 n) = two * (unitQ (quat x0 n) 1 * unitQ (quat x0 n) 2 + unitQ (quat x0 n) 0 * unitQ (quat x0 n) 3) := by
  rw [val_main_v36_apply, val_main_v35_apply, val_main_cst_3_apply, val_main_v34_apply, val_main_v32_apply, val_main_v33_apply,
    x_at, y_at, w_at, z_at]
  simp only [Ideal.subf_def, Ideal.mulf_def, Ideal.addf_def, Ideal.ofBits_def, one, two]
theorem r11_at : val_main_v43 (F := Ideal) x0 (ix1 n) = one - two * (unitQ (quat x0 n) 1 * unitQ (quat x0 n) 1 + unitQ (quat x0 n) 3 * unitQ (quat x0 n) 3) := by
  rw [val_main_v43_apply, val_main_v42_apply, val_main_cst_5_apply, val_main_v41_apply, val_main_v40_apply, val_main_cst_4_apply,
    val_main_v39_apply, val_main_v37_apply, val_main_v38_apply, x_at, z_at]
  simp only [Ideal.subf_def, Ideal.mulf_def, Ideal.addf_def, Ideal.ofBits_def, one, two]
theorem r12_at : val_main_v48 (F := Ideal) x0 (ix1 n) = two * (unitQ (quat x0 n) 2 * unitQ (quat x0 n) 3 - unitQ (quat x0 n) 0 * unitQ (quat x0 n) 1) := by
  rw [val_main_v48_apply, val_main_v47_apply, val_main_cst_6_apply, val_main_v46_apply, val_main_v44_apply, val_main_v45_apply,
    y_at, z_at, w_at, x_at]
  simp only [Ideal.subf_def, Ideal.mulf_def, Ideal.addf_def, Ideal.ofBits_def, one, two]
theorem r20_at : val_main_v57 (F := Ideal) x0 (ix1 n) = two * (unitQ (quat x0 n) 1 * unitQ (quat x0 n) 3 - unitQ (quat x0 n) 0 * unitQ (quat x0 n) 2) := by
  rw [val_main_v57_apply, val_main_v56_apply, val_main_cst_7_apply, val_main_v55_apply, val_main_v53_apply, val_main_v54_apply,
    x_at, z_at, w_at, y_at]
  simp only [Ideal.subf_def, Ideal.mulf_def, Ideal.addf_def, Ideal.ofBits_def, one, two]
theorem r21_at : val_main_v62 (F := Ideal) x0 (ix1 n) = two * (unitQ (quat x0 n) 2 * unitQ (quat x0 n) 3 + unitQ (quat x0 n) 0 * unitQ (quat x0 n) 1) := by
  rw [val_main_v62_apply, val_main_v61_apply, val_main_cst_8_apply, val_main_v60_apply, val_main_v58_apply, val_main_v59_apply,
    y_at, z_at, w_at, x_at]
  simp only [Ideal.subf_def, Ideal.mulf_def, Ideal.addf_def, Ideal.ofBits_def, one, two]
theorem r22_at : val_main_v69 (F := Ideal) x0 (ix1 n) = one - two * (unitQ (quat x0 n) 1 * unitQ (quat x0 n) 1 + unitQ (quat x0 n) 2 * unitQ (quat x0 n) 2) := by
  rw [val_main_v69_apply, val_main_v68_apply, val_main_cst_10_apply, val_main_v67_apply, val_main_v66_apply, val_main_cst_9_apply,
    val_main_v65_apply, val_main_v63_apply, val_main_v64_apply, x_at, y_at]
  simp only [Ideal.subf_def, Ideal.mulf_def, Ideal.addf_def, Ideal.ofBits_def, one, two]

/-! ## The stacks: entries into rows, rows into the matrix -/

/-- An entry vector given a unit trailing axis reads the vector at n. -/
theorem v28_at (u : Fin 1) : val_main_v28 (F := Ideal) x0 (ix2 n u) = val_main_v17 (F := Ideal) x0 (ix1 n) := by
  rw [val_main_v28_apply]; exact congrArg _ (funext fun a => Fin.ext (by match a with | ⟨0, _⟩ => rfl))
theorem v29_at (u : Fin 1) : val_main_v29 (F := Ideal) x0 (ix2 n u) = val_main_v22 (F := Ideal) x0 (ix1 n) := by
  rw [val_main_v29_apply]; exact congrArg _ (funext fun a => Fin.ext (by match a with | ⟨0, _⟩ => rfl))
theorem v30_at (u : Fin 1) : val_main_v30 (F := Ideal) x0 (ix2 n u) = val_main_v27 (F := Ideal) x0 (ix1 n) := by
  rw [val_main_v30_apply]; exact congrArg _ (funext fun a => Fin.ext (by match a with | ⟨0, _⟩ => rfl))
theorem v49_at (u : Fin 1) : val_main_v49 (F := Ideal) x0 (ix2 n u) = val_main_v36 (F := Ideal) x0 (ix1 n) := by
  rw [val_main_v49_apply]; exact congrArg _ (funext fun a => Fin.ext (by match a with | ⟨0, _⟩ => rfl))
theorem v50_at (u : Fin 1) : val_main_v50 (F := Ideal) x0 (ix2 n u) = val_main_v43 (F := Ideal) x0 (ix1 n) := by
  rw [val_main_v50_apply]; exact congrArg _ (funext fun a => Fin.ext (by match a with | ⟨0, _⟩ => rfl))
theorem v51_at (u : Fin 1) : val_main_v51 (F := Ideal) x0 (ix2 n u) = val_main_v48 (F := Ideal) x0 (ix1 n) := by
  rw [val_main_v51_apply]; exact congrArg _ (funext fun a => Fin.ext (by match a with | ⟨0, _⟩ => rfl))
theorem v70_at (u : Fin 1) : val_main_v70 (F := Ideal) x0 (ix2 n u) = val_main_v57 (F := Ideal) x0 (ix1 n) := by
  rw [val_main_v70_apply]; exact congrArg _ (funext fun a => Fin.ext (by match a with | ⟨0, _⟩ => rfl))
theorem v71_at (u : Fin 1) : val_main_v71 (F := Ideal) x0 (ix2 n u) = val_main_v62 (F := Ideal) x0 (ix1 n) := by
  rw [val_main_v71_apply]; exact congrArg _ (funext fun a => Fin.ext (by match a with | ⟨0, _⟩ => rfl))
theorem v72_at (u : Fin 1) : val_main_v72 (F := Ideal) x0 (ix2 n u) = val_main_v69 (F := Ideal) x0 (ix1 n) := by
  rw [val_main_v72_apply]; exact congrArg _ (funext fun a => Fin.ext (by match a with | ⟨0, _⟩ => rfl))

/-- Row 0 of R at (n, j), for j = 0, 1, 2: the j-th of its three stacked entries. -/
theorem row0_0 : val_main_v31 (F := Ideal) x0 (ix2 n 0) = val_main_v28 (F := Ideal) x0 (ix2 n (0 : Fin 1)) := by
  unfold val_main_v31
  exact concatenate_three_unit_apply0 (t := S8000000x3) (s₁ := S8000000x1) 1 _ _ _ _ rfl rfl (ix2 n 0) rfl (ix2 n (0 : Fin 1))
    (fun b hb => by match b with | ⟨0, _⟩ => rfl | ⟨1, _⟩ => exact absurd rfl hb)
theorem row0_1 : val_main_v31 (F := Ideal) x0 (ix2 n 1) = val_main_v29 (F := Ideal) x0 (ix2 n (0 : Fin 1)) := by
  unfold val_main_v31
  exact concatenate_three_unit_apply1 (t := S8000000x3) (s₁ := S8000000x1) 1 _ _ _ _ rfl rfl (ix2 n 1) rfl (ix2 n (0 : Fin 1))
    (fun b hb => by match b with | ⟨0, _⟩ => rfl | ⟨1, _⟩ => exact absurd rfl hb)
theorem row0_2 : val_main_v31 (F := Ideal) x0 (ix2 n 2) = val_main_v30 (F := Ideal) x0 (ix2 n (0 : Fin 1)) := by
  unfold val_main_v31
  exact concatenate_three_unit_apply2 (t := S8000000x3) (s₁ := S8000000x1) 1 _ _ _ _ rfl rfl (ix2 n 2) rfl (ix2 n (0 : Fin 1))
    (fun b hb => by match b with | ⟨0, _⟩ => rfl | ⟨1, _⟩ => exact absurd rfl hb)
/-- Row 1 of R at (n, j), for j = 0, 1, 2: the j-th of its three stacked entries. -/
theorem row1_0 : val_main_v52 (F := Ideal) x0 (ix2 n 0) = val_main_v49 (F := Ideal) x0 (ix2 n (0 : Fin 1)) := by
  unfold val_main_v52
  exact concatenate_three_unit_apply0 (t := S8000000x3) (s₁ := S8000000x1) 1 _ _ _ _ rfl rfl (ix2 n 0) rfl (ix2 n (0 : Fin 1))
    (fun b hb => by match b with | ⟨0, _⟩ => rfl | ⟨1, _⟩ => exact absurd rfl hb)
theorem row1_1 : val_main_v52 (F := Ideal) x0 (ix2 n 1) = val_main_v50 (F := Ideal) x0 (ix2 n (0 : Fin 1)) := by
  unfold val_main_v52
  exact concatenate_three_unit_apply1 (t := S8000000x3) (s₁ := S8000000x1) 1 _ _ _ _ rfl rfl (ix2 n 1) rfl (ix2 n (0 : Fin 1))
    (fun b hb => by match b with | ⟨0, _⟩ => rfl | ⟨1, _⟩ => exact absurd rfl hb)
theorem row1_2 : val_main_v52 (F := Ideal) x0 (ix2 n 2) = val_main_v51 (F := Ideal) x0 (ix2 n (0 : Fin 1)) := by
  unfold val_main_v52
  exact concatenate_three_unit_apply2 (t := S8000000x3) (s₁ := S8000000x1) 1 _ _ _ _ rfl rfl (ix2 n 2) rfl (ix2 n (0 : Fin 1))
    (fun b hb => by match b with | ⟨0, _⟩ => rfl | ⟨1, _⟩ => exact absurd rfl hb)
/-- Row 2 of R at (n, j), for j = 0, 1, 2: the j-th of its three stacked entries. -/
theorem row2_0 : val_main_v73 (F := Ideal) x0 (ix2 n 0) = val_main_v70 (F := Ideal) x0 (ix2 n (0 : Fin 1)) := by
  unfold val_main_v73
  exact concatenate_three_unit_apply0 (t := S8000000x3) (s₁ := S8000000x1) 1 _ _ _ _ rfl rfl (ix2 n 0) rfl (ix2 n (0 : Fin 1))
    (fun b hb => by match b with | ⟨0, _⟩ => rfl | ⟨1, _⟩ => exact absurd rfl hb)
theorem row2_1 : val_main_v73 (F := Ideal) x0 (ix2 n 1) = val_main_v71 (F := Ideal) x0 (ix2 n (0 : Fin 1)) := by
  unfold val_main_v73
  exact concatenate_three_unit_apply1 (t := S8000000x3) (s₁ := S8000000x1) 1 _ _ _ _ rfl rfl (ix2 n 1) rfl (ix2 n (0 : Fin 1))
    (fun b hb => by match b with | ⟨0, _⟩ => rfl | ⟨1, _⟩ => exact absurd rfl hb)
theorem row2_2 : val_main_v73 (F := Ideal) x0 (ix2 n 2) = val_main_v72 (F := Ideal) x0 (ix2 n (0 : Fin 1)) := by
  unfold val_main_v73
  exact concatenate_three_unit_apply2 (t := S8000000x3) (s₁ := S8000000x1) 1 _ _ _ _ rfl rfl (ix2 n 2) rfl (ix2 n (0 : Fin 1))
    (fun b hb => by match b with | ⟨0, _⟩ => rfl | ⟨1, _⟩ => exact absurd rfl hb)

/-- A row given a unit middle axis reads the row at (n, j). -/
theorem v74_at (u : Fin 1) (j : Fin 3) : val_main_v74 (F := Ideal) x0 (ix3 n u j) = val_main_v31 (F := Ideal) x0 (ix2 n j) := by
  rw [val_main_v74_apply]; exact congrArg _ (funext fun a => Fin.ext (by match a with | ⟨0, _⟩ => rfl | ⟨1, _⟩ => rfl))
theorem v75_at (u : Fin 1) (j : Fin 3) : val_main_v75 (F := Ideal) x0 (ix3 n u j) = val_main_v52 (F := Ideal) x0 (ix2 n j) := by
  rw [val_main_v75_apply]; exact congrArg _ (funext fun a => Fin.ext (by match a with | ⟨0, _⟩ => rfl | ⟨1, _⟩ => rfl))
theorem v76_at (u : Fin 1) (j : Fin 3) : val_main_v76 (F := Ideal) x0 (ix3 n u j) = val_main_v73 (F := Ideal) x0 (ix2 n j) := by
  rw [val_main_v76_apply]; exact congrArg _ (funext fun a => Fin.ext (by match a with | ⟨0, _⟩ => rfl | ⟨1, _⟩ => rfl))

/-- R at (n, a, j), for a = 0, 1, 2: the a-th of its three stacked rows, at (n, 0, j). -/
theorem stack0_at (j : Fin 3) : val_main_v77 (F := Ideal) x0 (ix3 n 0 j) = val_main_v74 (F := Ideal) x0 (ix3 n (0 : Fin 1) j) := by
  unfold val_main_v77
  exact concatenate_three_unit_apply0 (t := S8000000x3x3) (s₁ := S8000000x1x3) 1 _ _ _ _ rfl rfl (ix3 n 0 j) rfl (ix3 n (0 : Fin 1) j)
    (fun b hb => by match b with | ⟨0, _⟩ => rfl | ⟨1, _⟩ => exact absurd rfl hb | ⟨2, _⟩ => rfl)
theorem stack1_at (j : Fin 3) : val_main_v77 (F := Ideal) x0 (ix3 n 1 j) = val_main_v75 (F := Ideal) x0 (ix3 n (0 : Fin 1) j) := by
  unfold val_main_v77
  exact concatenate_three_unit_apply1 (t := S8000000x3x3) (s₁ := S8000000x1x3) 1 _ _ _ _ rfl rfl (ix3 n 1 j) rfl (ix3 n (0 : Fin 1) j)
    (fun b hb => by match b with | ⟨0, _⟩ => rfl | ⟨1, _⟩ => exact absurd rfl hb | ⟨2, _⟩ => rfl)
theorem stack2_at (j : Fin 3) : val_main_v77 (F := Ideal) x0 (ix3 n 2 j) = val_main_v76 (F := Ideal) x0 (ix3 n (0 : Fin 1) j) := by
  unfold val_main_v77
  exact concatenate_three_unit_apply2 (t := S8000000x3x3) (s₁ := S8000000x1x3) 1 _ _ _ _ rfl rfl (ix3 n 2 j) rfl (ix3 n (0 : Fin 1) j)
    (fun b hb => by match b with | ⟨0, _⟩ => rfl | ⟨1, _⟩ => exact absurd rfl hb | ⟨2, _⟩ => rfl)

/-- The nine entries of R at row n, each through its two stacks down to its quadratic form. -/
theorem e00 : val_main_v77 (F := Ideal) x0 (ix3 n 0 0) = one - two * (unitQ (quat x0 n) 2 * unitQ (quat x0 n) 2 + unitQ (quat x0 n) 3 * unitQ (quat x0 n) 3) := by
  rw [stack0_at, v74_at, row0_0, v28_at, r00_at]
theorem e01 : val_main_v77 (F := Ideal) x0 (ix3 n 0 1) = two * (unitQ (quat x0 n) 1 * unitQ (quat x0 n) 2 - unitQ (quat x0 n) 0 * unitQ (quat x0 n) 3) := by
  rw [stack0_at, v74_at, row0_1, v29_at, r01_at]
theorem e02 : val_main_v77 (F := Ideal) x0 (ix3 n 0 2) = two * (unitQ (quat x0 n) 1 * unitQ (quat x0 n) 3 + unitQ (quat x0 n) 0 * unitQ (quat x0 n) 2) := by
  rw [stack0_at, v74_at, row0_2, v30_at, r02_at]
theorem e10 : val_main_v77 (F := Ideal) x0 (ix3 n 1 0) = two * (unitQ (quat x0 n) 1 * unitQ (quat x0 n) 2 + unitQ (quat x0 n) 0 * unitQ (quat x0 n) 3) := by
  rw [stack1_at, v75_at, row1_0, v49_at, r10_at]
theorem e11 : val_main_v77 (F := Ideal) x0 (ix3 n 1 1) = one - two * (unitQ (quat x0 n) 1 * unitQ (quat x0 n) 1 + unitQ (quat x0 n) 3 * unitQ (quat x0 n) 3) := by
  rw [stack1_at, v75_at, row1_1, v50_at, r11_at]
theorem e12 : val_main_v77 (F := Ideal) x0 (ix3 n 1 2) = two * (unitQ (quat x0 n) 2 * unitQ (quat x0 n) 3 - unitQ (quat x0 n) 0 * unitQ (quat x0 n) 1) := by
  rw [stack1_at, v75_at, row1_2, v51_at, r12_at]
theorem e20 : val_main_v77 (F := Ideal) x0 (ix3 n 2 0) = two * (unitQ (quat x0 n) 1 * unitQ (quat x0 n) 3 - unitQ (quat x0 n) 0 * unitQ (quat x0 n) 2) := by
  rw [stack2_at, v76_at, row2_0, v70_at, r20_at]
theorem e21 : val_main_v77 (F := Ideal) x0 (ix3 n 2 1) = two * (unitQ (quat x0 n) 2 * unitQ (quat x0 n) 3 + unitQ (quat x0 n) 0 * unitQ (quat x0 n) 1) := by
  rw [stack2_at, v76_at, row2_1, v71_at, r21_at]
theorem e22 : val_main_v77 (F := Ideal) x0 (ix3 n 2 2) = one - two * (unitQ (quat x0 n) 1 * unitQ (quat x0 n) 1 + unitQ (quat x0 n) 2 * unitQ (quat x0 n) 2) := by
  rw [stack2_at, v76_at, row2_2, v72_at, r22_at]

/-! ## M = R · s, and the contraction -/

/-- The scale, broadcast along the rows of the matrix, at (n, a, j): s[n, j]. -/
theorem scale_at (a j : Fin 3) : val_main_v79 (F := Ideal) x1 (ix3 n a j) = scl x1 n j := by
  rw [val_main_v79_apply, val_main_v78_apply]
  exact congrArg x1 (funext fun b => Fin.ext (by match b with | ⟨0, _⟩ => rfl | ⟨1, _⟩ => rfl))

/-- M at (n, a, j) is the specification's scaled rotation entry (a, j) of row n of the inputs. -/
theorem m_at (a j : Fin 3) : val_main_v80 (F := Ideal) x0 x1 (ix3 n a j)
    = scaledRot (unitQ (quat x0 n)) (scl x1 n) a.val j.val := by
  rw [val_main_v80_apply, scale_at, Ideal.mulf_def]
  fin_cases a <;> fin_cases j
  · exact congrArg (· * scl x1 n 0) (e00 x0 n)
  · exact congrArg (· * scl x1 n 1) (e01 x0 n)
  · exact congrArg (· * scl x1 n 2) (e02 x0 n)
  · exact congrArg (· * scl x1 n 0) (e10 x0 n)
  · exact congrArg (· * scl x1 n 1) (e11 x0 n)
  · exact congrArg (· * scl x1 n 2) (e12 x0 n)
  · exact congrArg (· * scl x1 n 0) (e20 x0 n)
  · exact congrArg (· * scl x1 n 1) (e21 x0 n)
  · exact congrArg (· * scl x1 n 2) (e22 x0 n)

/-- The reference's result at (n, a, b): the covariance entry (a, b) of row n of the inputs. -/
theorem ref_at (a b : Fin 3) : val_main_v81 (F := Ideal) x0 x1 (ix3 n a b) = cov (quat x0 n) (scl x1 n) a b := by
  rw [val_main_v81_apply]
  unfold cov
  refine Finset.sum_congr rfl fun j _ => ?_
  have hl : lidx_main_v81 (ix3 n a b) j = ix3 n a j :=
    funext fun c => Fin.ext (by match c with | ⟨0, _⟩ => rfl | ⟨1, _⟩ => rfl | ⟨2, _⟩ => rfl)
  have hr : ridx_main_v81 (ix3 n a b) j = ix3 n b j :=
    funext fun c => Fin.ext (by match c with | ⟨0, _⟩ => rfl | ⟨1, _⟩ => rfl | ⟨2, _⟩ => rfl)
  rw [hl, hr, m_at, m_at]

/-- The reference's result array as one function of the argument arrays. -/
theorem ref_eq : val_main_v81 (F := Ideal) x0 x1 = fun i => cov (quat x0 (i 0)) (scl x1 (i 0)) (i 1) (i 2) :=
  funext fun i => (congrArg (val_main_v81 (F := Ideal) x0 x1) (eq_ix3 i)).trans (ref_at x0 x1 (i 0) (i 1) (i 2))

end Cert.RefValue

end
-- ==== Proof.lean ====
/-
  The certificate of a covariance kernel against its reference, over the extended reals.

  Per input row the two programs take a quaternion q and a scale s, normalise q by the square root of the
  sum of its squares, form the rotation matrix R of the unit quaternion, scale its columns by s, and
  return M · Mᵀ for M = R · diag(s).  The reference contracts M with itself over the column index for
  all nine entries; the kernel works on the transposed inputs, 32000 rows of the input per grid point,
  computes the six entries on and above the diagonal as three-term sums and writes each also in its
  mirrored place.  At the ideal instance both are the same function of the argument arrays
  (Proof/Result.lean's covariance array): a three-term sum is the kernel's bracketing and the products
  commute.  Nothing in the argument needs the inputs finite, so the precondition is never opened.

  The kernel's frames at both instances are the generated ones; the reference's frame is its generated
  run with the result dropped; no operation of the kernel was rewritten by the ideal pass, so the
  idealization claim is trivial.
-/
import proofs.«100342_j36670430773888_1_alg».proof.Defs
import proofs.«100342_j36670430773888_1_alg».proof.Proof.Gen.Kernel
import proofs.«100342_j36670430773888_1_alg».proof.Proof.Gen.Kernel.Skeleton
import proofs.«100342_j36670430773888_1_alg».proof.Proof.Gen.Kernel.Launch
import proofs.«100342_j36670430773888_1_alg».proof.Proof.Gen.Kernel.Points
import proofs.«100342_j36670430773888_1_alg».proof.Proof.Gen.Kernel.Frame
import proofs.«100342_j36670430773888_1_alg».proof.Proof.Gen.KernelIdeal
import proofs.«100342_j36670430773888_1_alg».proof.Proof.Gen.KernelIdeal.Skeleton
import proofs.«100342_j36670430773888_1_alg».proof.Proof.Gen.KernelIdeal.Launch
import proofs.«100342_j36670430773888_1_alg».proof.Proof.Gen.KernelIdeal.Points
import proofs.«100342_j36670430773888_1_alg».proof.Proof.Gen.KernelIdeal.Frame
import proofs.«100342_j36670430773888_1_alg».proof.Proof.Gen.ReferenceIdeal
import proofs.«100342_j36670430773888_1_alg».proof.Proof.Gen.ReferenceIdeal.Run
import proofs.«100342_j36670430773888_1_alg».proof.Proof.Gen.ReferenceIdeal.Read
import proofs.«100342_j36670430773888_1_alg».proof.Proof.Gen.Pre_finite_inputs
import proofs.«100342_j36670430773888_1_alg».proof.Proof.KernelRun
import proofs.«100342_j36670430773888_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the covariance array of the
    arguments: the kernel by its run, the reference by its run read index by index. -/
theorem algebraic : Cert.algebraic_KernelIdeal_ReferenceIdeal := by
  intro m ρ m' ρ' _ hagree
  refine ⟨fun c => Cert.Cov.covOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.RefValue.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
